-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x64 : Shape := ⟨3, ![16, 4096, 64]⟩
abbrev S256x64 : Shape := ⟨2, ![256, 64]⟩
abbrev S_ : Shape := ⟨0, ![]⟩

class Facts : Prop where
  bcast_S_S16x4096x64 : S_.BroadcastsInDim S16x4096x64 (![] : Fin 0 → Fin S16x4096x64.rank)
  reducesTo_S16x4096x64_S_d0_1_2 : S16x4096x64.ReducesTo [0, 1, 2] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S16x4096x64 .f32) (main_arg1 : FVec F S256x64 .f32) : IVec S_ 1 :=
  let main_v0 : FVec F S16x4096x64 .f32 := Host.absf main_arg0
  let main_cst : FVec F S_ .f32 := constant S_ .f32 0x7F800000#32
  let main_v1 : FVec F S16x4096x64 .f32 := broadcastInDim S16x4096x64 ![] bcast_S_S16x4096x64 main_cst
  let main_v2 : IVec S16x4096x64 1 := cmpf .olt main_v0 main_v1
  let main_c : IVec S_ 1 := constantI S_ 1 1#1
  let main_v3 : IVec S_ 1 := (fun x v => Host.reduce IntOp.andi x v reducesTo_S16x4096x64_S_d0_1_2 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  main_v8
-- ==== Kernel.lean ====
abbrev S16x4096x64 : Shape := ⟨3, ![16, 4096, 64]⟩
abbrev S256x64 : Shape := ⟨2, ![256, 64]⟩
abbrev S16x256 : Shape := ⟨2, ![16, 256]⟩
abbrev S8x256x64 : Shape := ⟨3, ![8, 256, 64]⟩
abbrev S8x256 : Shape := ⟨2, ![8, 256]⟩
abbrev S8x256x1 : Shape := ⟨3, ![8, 256, 1]⟩
abbrev S256 : Shape := ⟨1, ![256]⟩
abbrev S2048x64 : Shape := ⟨2, ![2048, 64]⟩
abbrev S64x256 : Shape := ⟨2, ![64, 256]⟩
abbrev S2048x256 : Shape := ⟨2, ![2048, 256]⟩
abbrev S8x256x256 : Shape := ⟨3, ![8, 256, 256]⟩
abbrev S1x1x256 : Shape := ⟨3, ![1, 1, 256]⟩

abbrev nBuf : Space → Nat
  | .hbm => 3
  | .vmem => 5
  | .smem => 0
  | _ => 0

abbrev bufTy : (tb : Table) → Fin (tcTables nBuf tb) → BufTy
  | .hbm, ⟨0, _⟩ => ⟨S16x4096x64, .f32⟩
  | .hbm, ⟨1, _⟩ => ⟨S256x64, .f32⟩
  | .hbm, ⟨2, _⟩ => ⟨S16x256, .f32⟩
  | .local _ .vmem, ⟨0, _⟩ => ⟨S8x256x64, .f32⟩
  | .local _ .vmem, ⟨1, _⟩ => ⟨S8x256x64, .f32⟩
  | .local _ .vmem, ⟨2, _⟩ => ⟨S256x64, .f32⟩
  | .local _ .vmem, ⟨3, _⟩ => ⟨S8x256, .f32⟩
  | .local _ .vmem, ⟨4, _⟩ => ⟨S8x256, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v24 : BitVec 1 := Scalar.cmpi .eq arg1 c0_i32
  let v25 : BitVec 32 := Scalar.extui v24
  let c0_i32_9 : BitVec 32 := 0#32
  let v26 : BitVec 1 := Scalar.cmpi .ne v25 c0_i32_9
  v26

def k0_cond2 (i : grid0.Coords) : BitVec 1 :=
  let arg1 : BitVec 32 := BitVec.ofNat 32 (i 1).val
  let c0_i32_10 : BitVec 32 := 0#32
  let v27 : BitVec 1 := Scalar.cmpi .sgt arg1 c0_i32_10
  let v28 : BitVec 32 := Scalar.extui v27
  let c0_i32_11 : BitVec 32 := 0#32
  let v29 : BitVec 1 := Scalar.cmpi .ne v28 c0_i32_11
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x256x64_S8x256x64_0_0_0 : ∀ a, (![0, 0, 0] : Fin 3 → Nat) a + S8x256x64.size a ≤ S8x256x64.size a
  h_S8x256x64 : 0 < S8x256x64.numel
  inb_S256x64_S256x64_0_0 : ∀ a, (![0, 0] : Fin 2 → Nat) a + S256x64.size a ≤ S256x64.size a
  h_S256x64 : 0 < S256x64.numel
  reduces_S8x256x64_S8x256 : S8x256x64.Reduces [2] S8x256
  shapeCasts_S8x256_S8x256x1 : S8x256.ShapeCasts S8x256x1
  reduces_S256x64_S256 : S256x64.Reduces [1] S256
  bitsLt_bf16_f32 : FTy.bits .bf16 < FTy.bits .f32
  shapeCasts_S8x256x64_S2048x64 : S8x256x64.ShapeCasts S2048x64
  transposes_S256x64_p1_0_S64x256 : S256x64.Transposes [1, 0] S64x256
  shapeCasts_S2048x256_S8x256x256 : S2048x256.ShapeCasts S8x256x256
  shapeCasts_S256_S1x1x256 : S256.ShapeCasts S1x1x256
  broadcasts_S8x256x1_S8x256x256 : S8x256x1.Broadcasts S8x256x256
  broadcasts_S1x1x256_S8x256x256 : S1x1x256.Broadcasts S8x256x256
  reduces_S8x256x256_S8x256 : S8x256x256.Reduces [1] S8x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  dot_S2048x64_S64x256_S2048x256_1_0_0_1_n_n_wf : DotDims.WF S2048x64 S64x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x64.size a ≤ S16x4096x64.size a
  hwx0_0 : ∀ i : grid0.Coords, EltTy.bits .f32 = 32 ∨ (Rect.block (s := S16x4096x64) S8x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S16x256.size a
  hwx0_2 : ∀ i : grid0.Coords, EltTy.bits .f32 = 32 ∨ (Rect.block (s := S16x256) S8x256.size (cc0_transform_2 i) (hinb0_2 i)).WholeWords (EltTy.packing .f32)

variable [Facts₀]

def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf

abbrev win0_0 : Pipeline.Window sig grid0 :=
  Pipeline.Window.ofSpec (Memref.whole main_arg0) S8x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S16x4096x64 : Shape := ⟨3, ![16, 4096, 64]⟩
abbrev S256x64 : Shape := ⟨2, ![256, 64]⟩
abbrev S_ : Shape := ⟨0, ![]⟩
abbrev S16x4096 : Shape := ⟨2, ![16, 4096]⟩
abbrev S256 : Shape := ⟨1, ![256]⟩
abbrev S256x16x4096 : Shape := ⟨3, ![256, 16, 4096]⟩
abbrev S16x256x4096 : Shape := ⟨3, ![16, 256, 4096]⟩
abbrev S16x1x4096 : Shape := ⟨3, ![16, 1, 4096]⟩
abbrev S1x256x1 : Shape := ⟨3, ![1, 256, 1]⟩
abbrev S16x256 : Shape := ⟨2, ![16, 256]⟩

abbrev nBuf : Space → Nat
  | .hbm => 25
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S256x64, .f32⟩
  | .hbm, ⟨2, _⟩ => ⟨S16x4096x64, .f32⟩
  | .hbm, ⟨3, _⟩ => ⟨S_, .f32⟩
  | .hbm, ⟨4, _⟩ => ⟨S16x4096, .f32⟩
  | .hbm, ⟨5, _⟩ => ⟨S256x64, .f32⟩
  | .hbm, ⟨6, _⟩ => ⟨S_, .f32⟩
  | .hbm, ⟨7, _⟩ => ⟨S256, .f32⟩
  | .hbm, ⟨8, _⟩ => ⟨S256x16x4096, .f32⟩
  | .hbm, ⟨9, _⟩ => ⟨S16x256x4096, .f32⟩
  | .hbm, ⟨10, _⟩ => ⟨S16x1x4096, .f32⟩
  | .hbm, ⟨11, _⟩ => ⟨S1x256x1, .f32⟩
  | .hbm, ⟨12, _⟩ => ⟨S16x256x4096, .f32⟩
  | .hbm, ⟨13, _⟩ => ⟨S16x256x4096, .f32⟩
  | .hbm, ⟨14, _⟩ => ⟨S16x256x4096, .f32⟩
  | .hbm, ⟨15, _⟩ => ⟨S_, .f32⟩
  | .hbm, ⟨16, _⟩ => ⟨S16x256x4096, .f32⟩
  | .hbm, ⟨17, _⟩ => ⟨S16x256x4096, .f32⟩
  | .hbm, ⟨18, _⟩ => ⟨S16x256x4096, .f32⟩
  | .hbm, ⟨19, _⟩ => ⟨S_, .f32⟩
  | .hbm, ⟨20, _⟩ => ⟨S16x256x4096, .f32⟩
  | .hbm, ⟨21, _⟩ => ⟨S16x256x4096, .f32⟩
  | .hbm, ⟨22, _⟩ => ⟨S16x256x4096, .f32⟩
  | .hbm, ⟨23, _⟩ => ⟨S_, .f32⟩
  | .hbm, ⟨24, _⟩ => ⟨S16x256, .f32⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S16x4096x64_S16x4096_d2 : S16x4096x64.ReducesTo [2] S16x4096
  h_S_ : 0 < S_.numel
  reducesTo_S256x64_S256_d1 : S256x64.ReducesTo [1] S256
  transposes_S256x16x4096_S16x256x4096_1_0_2 : S256x16x4096.Transposes [1, 0, 2] S16x256x4096
  bcast_S16x4096_S16x1x4096_0_2 : S16x4096.BroadcastsInDim S16x1x4096 (![0, 2] : Fin 2 → Fin S16x1x4096.rank)
  bcast_S256_S1x256x1_1 : S256.BroadcastsInDim S1x256x1 (![1] : Fin 1 → Fin S1x256x1.rank)
  bcast_S16x1x4096_S16x256x4096_0_1_2 : S16x1x4096.BroadcastsInDim S16x256x4096 (![0, 1, 2] : Fin 3 → Fin S16x256x4096.rank)
  bcast_S1x256x1_S16x256x4096_0_1_2 : S1x256x1.BroadcastsInDim S16x256x4096 (![0, 1, 2] : Fin 3 → Fin S16x256x4096.rank)
  bcast_S_S16x256x4096 : S_.BroadcastsInDim S16x256x4096 (![] : Fin 0 → Fin S16x256x4096.rank)
  reducesTo_S16x256x4096_S16x256_d2 : S16x256x4096.ReducesTo [2] S16x256
  dot_S256x64_S16x4096x64_S256x16x4096_1_2_0_01_n_n_wf : DotDims.WF S256x64 S16x4096x64 S256x16x4096 [1] [2] [0] [0, 1] [] []

variable [Facts₀]

def dot_S256x64_S16x4096x64_S256x16x4096_1_2_0_01_n_n : DotDims S256x64 S16x4096x64 S256x16x4096 where
  lhsContracting := [1]
  rhsContracting := [2]
  lhsNonContracting := [0]
  rhsNonContracting := [0, 1]
  lhsBatch := []
  rhsBatch := []
  wf := dot_S256x64_S16x4096x64_S256x16x4096_1_2_0_01_n_n_wf

class Facts : Prop extends Facts₀ where

variable [Facts]
-- ==== Proof.BitsRuns.lean ====
/-
  The kernel body on whole staging memrefs, in each of its two control cases.

  Every grid point `(bi, si)` loads its block of points and the stars and computes the tile's partial minimum
  (`k0_pay1`).  At the first tile of a batch block (`si = 0`) it stores that partial minimum over whatever the output
  buffer held; at every later tile (`si > 0`) it stores the elementwise minimum of the buffer's contents with it
  (`k0_pay2`).  Exactly one of the two branches is taken at each point.
-/
import proofs.«168192_j36773509989120_1_alg».proof.Proof.Gen.Kernel.Frame
import proofs.«168192_j36773509989120_1_alg».proof.Proof.Gen.Kernel.Skeleton
import Idealize.ShloMosaic.Lib.Pipeline.Value

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of the whole-buffer rectangles are zero on every axis. -/
theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- FIRST TILE (`si = 0`: the reset branch taken, the accumulate branch not).  From the points block `x0`, the stars
    `x1` and an output buffer at anything, the body ends with the inputs as they were and the output buffer at the
    tile's partial minimum. -/
theorem run_first (c : Dev nD) (i : grid0.Coords) (arg2 : Memref sig .tc .vmem S8x256x64 .f32) (harg2 : arg2.IsWhole)
    (arg3 : Memref sig .tc .vmem S256x64 .f32) (harg3 : arg3.IsWhole) (arg4 : Memref sig .tc .vmem S8x256 .f32) (harg4 : arg4.IsWhole)
    (h1 : k0_cond1 i = 1#1) (h2 : ¬ k0_cond2 i = 1#1)
    (x0 : Vec F S8x256x64 .f32) (x1 : Vec F S256x64 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k0_pay1 x0 x1)) -∗ K ⟨⟩))
      ⊢ wp frame (wpE (defs₀ (F := F)) Variants.none c none) E (cc0__kernel i arg2 harg2 arg3 harg3 arg4 harg4) K := by
  simp only [cc0__kernel_eq_skeleton]; unfold cc0__kernel_skel
  unfold owns
  iintro ⟨⟨%f0, %hf0, H0⟩, ⟨%f1, %hf1, H1⟩, ⟨%d, %f2, -, H2⟩, Hk⟩
  obtain rfl := harg2.eq_unread hf0; obtain rfl := harg3.eq_unread hf1
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [View.read_writes_eq_canon _ _ _ (fun y => ⟨_, List.mem_singleton_self _, View.mem_set_unit_zero hz2 Facts₀.inb_S8x256_S8x256_0_0 y⟩),
    View.canon_unit_zero hz2]
  simp only [View.readAt_eq_ld, harg2.read_unread, harg3.read_unread, View.ld_unit_zero (S := S8x256x64) hz3,
    View.ld_unit_zero (S := S256x64) hz2]

set_option maxHeartbeats 1000000 in
/-- LATER TILE (`si > 0`: the reset branch not taken, the accumulate branch taken).  From the points block `x0`, the
    stars `x1` and the output buffer at the running minimum `xo`, the body ends with the inputs as they were and the
    output buffer at the minimum of `xo` with the tile's partial minimum. -/
theorem run_later (c : Dev nD) (i : grid0.Coords) (arg2 : Memref sig .tc .vmem S8x256x64 .f32) (harg2 : arg2.IsWhole)
    (arg3 : Memref sig .tc .vmem S256x64 .f32) (harg3 : arg3.IsWhole) (arg4 : Memref sig .tc .vmem S8x256 .f32) (harg4 : arg4.IsWhole)
    (h1 : ¬ k0_cond1 i = 1#1) (h2 : k0_cond2 i = 1#1)
    (x0 : Vec F S8x256x64 .f32) (x1 : Vec F S256x64 .f32) (xo : Vec F S8x256 .f32) (E : Set ℕ) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (k0_pay2 x0 x1 xo)) -∗ K ⟨⟩))
      ⊢ wp frame (wpE (defs₀ (F := F)) Variants.none c none) E (cc0__kernel i arg2 harg2 arg3 harg3 arg4 harg4) K := by
  simp only [cc0__kernel_eq_skeleton]; unfold cc0__kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [View.read_writes_eq_canon _ _ _ (fun y => ⟨_, List.mem_singleton_self _, View.mem_set_unit_zero hz2 Facts₀.inb_S8x256_S8x256_0_0 y⟩),
    View.canon_unit_zero hz2]
  simp only [View.readAt_eq_ld, harg2.read_unread, harg3.read_unread, harg4.read_unread, View.ld_unit_zero (S := S8x256x64) hz3,
    View.ld_unit_zero (S := S256x64) hz2, View.ld_unit_zero (S := S8x256) hz2]

end Cert.Kernel.Tiles

end
-- ==== Proof.BitsFrame.lean ====
/-
  The pipeline's proof data and frame.

  The output block of batch tile `bi` stays in its staging buffer across the sixteen point tiles `si = 0 … 15` and is
  written back after the last.  So what the buffer holds after point `t = 16·bi + si` is defined by recursion on the
  point: the tile's partial minimum at `si = 0`, and at `si > 0` the minimum of what the point before left with the
  tile's partial minimum.  Between two points of one batch tile the buffer is not written back, so the body finds at
  `si > 0` exactly what it left at `si − 1`.  With that the body runs at every point, and the run's frame follows
  from the launch theorem: it terminates, nothing faults, and the two argument arrays end as they were.
-/
import proofs.«168192_j36773509989120_1_alg».proof.Proof.BitsRuns

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branch a point takes -/

/-- The reset branch is taken exactly at the first point tile of each batch tile, -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- and the accumulate branch exactly at the others. -/
theorem later_iff : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- One of the two branches stores into the output buffer at every grid coordinate: the output window is idle nowhere. -/
theorem live2 : ∀ i : grid0.Coords, idle0 2 i = false := by decide +kernel
theorem live2_cfg : ∀ i : cfg0.grid.Coords, cfg0.idle 2 i = false := live2

/-! ## What the output buffer holds after each point -/

/-- THE RUNNING MINIMUM.  After point `n`: the tile's partial minimum where the point starts a batch tile, else the
    minimum of what point `n − 1` left with the tile's partial minimum. -/
def accAt (c : Dev nD) : (n : ℕ) → n < cfg0.N → Vec F S8x256 .f32
  | 0, hn => k0_pay1 (iblk m c 0 ⟨0, hn⟩) (iblk m c 1 ⟨0, hn⟩)
  | n + 1, hn =>
    if (n + 1) % 16 = 0 then k0_pay1 (iblk m c 0 ⟨n + 1, hn⟩) (iblk m c 1 ⟨n + 1, hn⟩)
    else k0_pay2 (iblk m c 0 ⟨n + 1, hn⟩) (iblk m c 1 ⟨n + 1, hn⟩) (accAt c n (Nat.lt_of_succ_lt hn))

theorem accAt_first (c : Dev nD) (t : Fin cfg0.N) (h0 : t.val % 16 = 0) :
    accAt m c t.val t.isLt = k0_pay1 (iblk m c 0 t) (iblk m c 1 t) := by
  obtain ⟨n, hn⟩ := t
  cases n with
  | zero => exact rfl
  | succ n => exact (if_pos h0).trans rfl

theorem accAt_later (c : Dev nD) (t : Fin cfg0.N) (h0 : ¬ t.val % 16 = 0) :
    accAt m c t.val t.isLt
      = k0_pay2 (iblk m c 0 t) (iblk m c 1 t) (accAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The proof data -/

/-- The arrays as the region finds them; after the body at point `t` each input's buffer at its block and the output's
    at the running minimum; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later tile the output's buffer holds what the body left at the point before: the point is not the first, the
    buffer is written back only after the last tile of a batch tile, and the window is idle nowhere and uncut. -/
theorem before2_later (c : Dev nD) (t : Fin cfg0.N) (h0 : ¬ t.val % 16 = 0) (d) :
    (dats m 0 c).before 2 t d = accAt m c (t.val - 1) (Nat.lt_of_le_of_lt (Nat.sub_le _ _) t.isLt) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    live2_cfg (fun _ _ => rfl)]
  dsimp only [dats]

/-! ## The body obligation -/

/-- Each window's current staging memref at point `t`, as the pipeline passes it. -/
abbrev ms0 (t : Fin cfg0.N) : Memref sig .tc .vmem S8x256x64 .f32 := win0_0.stage (cfg0.slots t 0)
abbrev ms1 (t : Fin cfg0.N) : Memref sig .tc .vmem S256x64 .f32 := win0_1.stage (cfg0.slots t 1)
abbrev ms2 (t : Fin cfg0.N) : Memref sig .tc .vmem S8x256 .f32 := win0_2.stage (cfg0.slots t 2)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 800000 in
/-- The body at any point: the inputs' buffers hold their blocks; the point's position in its batch tile says which
    branch runs; at a later tile the output's buffer holds the running minimum of the point before. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  by_cases h0 : t.val % 16 = 0
  · rw [accAt_first m c t h0]
    iintro ⟨HΦ, Ho, ⟨%d0, H0⟩, ⟨%d1, H1⟩, ⟨%d2, H2⟩⟩
    iapply (run_first c (grid0.coords t) _ _ _ _ _ _ ((first_iff t).mpr h0) (fun h => (later_iff t).mp h h0)
      (iblk m c 0 t) (iblk m c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accAt_later m c t h0]
    simp only [before2_later m c t h0]
    iintro ⟨HΦ, Ho, ⟨%d0, H0⟩, ⟨%d1, H1⟩, ⟨%d2, H2⟩⟩
    iapply (run_later c (grid0.coords t) _ _ _ _ _ _ (fun h => h0 ((first_iff t).mp h)) ((later_iff t).mpr h0)
      (iblk m c 0 t) (iblk m c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  rw [live2_cfg (cfg0.grid.coords t)]
  exact sound_body m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the run terminates, nothing faults, and the two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Tiles

end
-- ==== Proof.IdealRuns.lean ====
/-
  The kernel body on whole staging memrefs, in each of its two control cases.

  Every grid point `(bi, si)` loads its block of points and the stars and computes the tile's partial minimum
  (`k0_pay1`).  At the first tile of a batch block (`si = 0`) it stores that partial minimum over whatever the output
  buffer held; at every later tile (`si > 0`) it stores the elementwise minimum of the buffer's contents with it
  (`k0_pay2`).  Exactly one of the two branches is taken at each point.
-/
import proofs.«168192_j36773509989120_1_alg».proof.Proof.Gen.KernelIdeal.Frame
import proofs.«168192_j36773509989120_1_alg».proof.Proof.Gen.KernelIdeal.Skeleton
import Idealize.ShloMosaic.Lib.Pipeline.Value

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of the whole-buffer rectangles are zero on every axis. -/
theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- FIRST TILE (`si = 0`: the reset branch taken, the accumulate branch not).  From the points block `x0`, the stars
    `x1` and an output buffer at anything, the body ends with the inputs as they were and the output buffer at the
    tile's partial minimum. -/
theorem run_first (c : Dev nD) (i : grid0.Coords) (arg2 : Memref sig .tc .vmem S8x256x64 .f32) (harg2 : arg2.IsWhole)
    (arg3 : Memref sig .tc .vmem S256x64 .f32) (harg3 : arg3.IsWhole) (arg4 : Memref sig .tc .vmem S8x256 .f32) (harg4 : arg4.IsWhole)
    (h1 : k0_cond1 i = 1#1) (h2 : ¬ k0_cond2 i = 1#1)
    (x0 : Vec F S8x256x64 .f32) (x1 : Vec F S256x64 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k0_pay1 x0 x1)) -∗ K ⟨⟩))
      ⊢ wp frame (wpE (defs₀ (F := F)) Variants.none c none) E (cc0__kernel i arg2 harg2 arg3 harg3 arg4 harg4) K := by
  simp only [cc0__kernel_eq_skeleton]; unfold cc0__kernel_skel
  unfold owns
  iintro ⟨⟨%f0, %hf0, H0⟩, ⟨%f1, %hf1, H1⟩, ⟨%d, %f2, -, H2⟩, Hk⟩
  obtain rfl := harg2.eq_unread hf0; obtain rfl := harg3.eq_unread hf1
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [View.read_writes_eq_canon _ _ _ (fun y => ⟨_, List.mem_singleton_self _, View.mem_set_unit_zero hz2 Facts₀.inb_S8x256_S8x256_0_0 y⟩),
    View.canon_unit_zero hz2]
  simp only [View.readAt_eq_ld, harg2.read_unread, harg3.read_unread, View.ld_unit_zero (S := S8x256x64) hz3,
    View.ld_unit_zero (S := S256x64) hz2]

set_option maxHeartbeats 1000000 in
/-- LATER TILE (`si > 0`: the reset branch not taken, the accumulate branch taken).  From the points block `x0`, the
    stars `x1` and the output buffer at the running minimum `xo`, the body ends with the inputs as they were and the
    output buffer at the minimum of `xo` with the tile's partial minimum. -/
theorem run_later (c : Dev nD) (i : grid0.Coords) (arg2 : Memref sig .tc .vmem S8x256x64 .f32) (harg2 : arg2.IsWhole)
    (arg3 : Memref sig .tc .vmem S256x64 .f32) (harg3 : arg3.IsWhole) (arg4 : Memref sig .tc .vmem S8x256 .f32) (harg4 : arg4.IsWhole)
    (h1 : ¬ k0_cond1 i = 1#1) (h2 : k0_cond2 i = 1#1)
    (x0 : Vec F S8x256x64 .f32) (x1 : Vec F S256x64 .f32) (xo : Vec F S8x256 .f32) (E : Set ℕ) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (k0_pay2 x0 x1 xo)) -∗ K ⟨⟩))
      ⊢ wp frame (wpE (defs₀ (F := F)) Variants.none c none) E (cc0__kernel i arg2 harg2 arg3 harg3 arg4 harg4) K := by
  simp only [cc0__kernel_eq_skeleton]; unfold cc0__kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [View.read_writes_eq_canon _ _ _ (fun y => ⟨_, List.mem_singleton_self _, View.mem_set_unit_zero hz2 Facts₀.inb_S8x256_S8x256_0_0 y⟩),
    View.canon_unit_zero hz2]
  simp only [View.readAt_eq_ld, harg2.read_unread, harg3.read_unread, harg4.read_unread, View.ld_unit_zero (S := S8x256x64) hz3,
    View.ld_unit_zero (S := S256x64) hz2, View.ld_unit_zero (S := S8x256) hz2]

end Cert.KernelIdeal.Tiles

end
-- ==== Proof.IdealFrame.lean ====
/-
  The pipeline's proof data and frame.

  The output block of batch tile `bi` stays in its staging buffer across the sixteen point tiles `si = 0 … 15` and is
  written back after the last.  So what the buffer holds after point `t = 16·bi + si` is defined by recursion on the
  point: the tile's partial minimum at `si = 0`, and at `si > 0` the minimum of what the point before left with the
  tile's partial minimum.  Between two points of one batch tile the buffer is not written back, so the body finds at
  `si > 0` exactly what it left at `si − 1`.  With that the body runs at every point, and the run's frame follows
  from the launch theorem: it terminates, nothing faults, and the two argument arrays end as they were.
-/
import proofs.«168192_j36773509989120_1_alg».proof.Proof.IdealRuns

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branch a point takes -/

/-- The reset branch is taken exactly at the first point tile of each batch tile, -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- and the accumulate branch exactly at the others. -/
theorem later_iff : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- One of the two branches stores into the output buffer at every grid coordinate: the output window is idle nowhere. -/
theorem live2 : ∀ i : grid0.Coords, idle0 2 i = false := by decide +kernel
theorem live2_cfg : ∀ i : cfg0.grid.Coords, cfg0.idle 2 i = false := live2

/-! ## What the output buffer holds after each point -/

/-- THE RUNNING MINIMUM.  After point `n`: the tile's partial minimum where the point starts a batch tile, else the
    minimum of what point `n − 1` left with the tile's partial minimum. -/
def accAt (c : Dev nD) : (n : ℕ) → n < cfg0.N → Vec F S8x256 .f32
  | 0, hn => k0_pay1 (iblk m c 0 ⟨0, hn⟩) (iblk m c 1 ⟨0, hn⟩)
  | n + 1, hn =>
    if (n + 1) % 16 = 0 then k0_pay1 (iblk m c 0 ⟨n + 1, hn⟩) (iblk m c 1 ⟨n + 1, hn⟩)
    else k0_pay2 (iblk m c 0 ⟨n + 1, hn⟩) (iblk m c 1 ⟨n + 1, hn⟩) (accAt c n (Nat.lt_of_succ_lt hn))

theorem accAt_first (c : Dev nD) (t : Fin cfg0.N) (h0 : t.val % 16 = 0) :
    accAt m c t.val t.isLt = k0_pay1 (iblk m c 0 t) (iblk m c 1 t) := by
  obtain ⟨n, hn⟩ := t
  cases n with
  | zero => exact rfl
  | succ n => exact (if_pos h0).trans rfl

theorem accAt_later (c : Dev nD) (t : Fin cfg0.N) (h0 : ¬ t.val % 16 = 0) :
    accAt m c t.val t.isLt
      = k0_pay2 (iblk m c 0 t) (iblk m c 1 t) (accAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The proof data -/

/-- The arrays as the region finds them; after the body at point `t` each input's buffer at its block and the output's
    at the running minimum; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later tile the output's buffer holds what the body left at the point before: the point is not the first, the
    buffer is written back only after the last tile of a batch tile, and the window is idle nowhere and uncut. -/
theorem before2_later (c : Dev nD) (t : Fin cfg0.N) (h0 : ¬ t.val % 16 = 0) (d) :
    (dats m 0 c).before 2 t d = accAt m c (t.val - 1) (Nat.lt_of_le_of_lt (Nat.sub_le _ _) t.isLt) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    live2_cfg (fun _ _ => rfl)]
  dsimp only [dats]

/-! ## The body obligation -/

/-- Each window's current staging memref at point `t`, as the pipeline passes it. -/
abbrev ms0 (t : Fin cfg0.N) : Memref sig .tc .vmem S8x256x64 .f32 := win0_0.stage (cfg0.slots t 0)
abbrev ms1 (t : Fin cfg0.N) : Memref sig .tc .vmem S256x64 .f32 := win0_1.stage (cfg0.slots t 1)
abbrev ms2 (t : Fin cfg0.N) : Memref sig .tc .vmem S8x256 .f32 := win0_2.stage (cfg0.slots t 2)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 800000 in
/-- The body at any point: the inputs' buffers hold their blocks; the point's position in its batch tile says which
    branch runs; at a later tile the output's buffer holds the running minimum of the point before. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  by_cases h0 : t.val % 16 = 0
  · rw [accAt_first m c t h0]
    iintro ⟨HΦ, Ho, ⟨%d0, H0⟩, ⟨%d1, H1⟩, ⟨%d2, H2⟩⟩
    iapply (run_first c (grid0.coords t) _ _ _ _ _ _ ((first_iff t).mpr h0) (fun h => (later_iff t).mp h h0)
      (iblk m c 0 t) (iblk m c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accAt_later m c t h0]
    simp only [before2_later m c t h0]
    iintro ⟨HΦ, Ho, ⟨%d0, H0⟩, ⟨%d1, H1⟩, ⟨%d2, H2⟩⟩
    iapply (run_later c (grid0.coords t) _ _ _ _ _ _ (fun h => h0 ((first_iff t).mp h)) ((later_iff t).mpr h0)
      (iblk m c 0 t) (iblk m c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  rw [live2_cfg (cfg0.grid.coords t)]
  exact sound_body m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the run terminates, nothing faults, and the two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Tiles

end
-- ==== Proof.Spec.lean ====
/-
  The function both programs compute, stated once over plain index types.

  For points `x[b, s, ·] ∈ ℝ⁶⁴` and stars `c[o, ·] ∈ ℝ⁶⁴` the distance of point `(b, s)` to star `o` is taken in the
  expanded form `√ max(‖x‖² + ‖c‖² − 2·⟨x, c⟩, 0)`, and the result at `(b, o)` is the least of these distances over
  all `s`.  The least element of a finite family of extended reals is carried by its universal property
  (`z ≤ min ↔ z ≤ every member`): partial minima over an initial stretch of the points are described that way, so that
  taking the minimum tile by tile and taking it in one sweep are seen to agree without comparing two folds.
-/
import Idealize.ShloMosaic.PureOps.Ideal
import Idealize.ShloMosaic.PureOps.Ideal.Laws
import Idealize.ShloMosaic.Lib.ValueIdx

noncomputable section

namespace Cert.NearestStar

open Idealize.ShloMosaic Idealize.ShloMosaic.ValueIdx

/-- The squared length of point `(b, s)`. -/
def sqNorm {B S : ℕ} (x : (⟨3, ![B, S, 64]⟩ : Shape).Idx → EReal) (b : Fin B) (s : Fin S) : EReal :=
  ∑ k : Fin 64, x (ix3 b s k) * x (ix3 b s k)

/-- The squared length of star `o`. -/
def starSq (c : (⟨2, ![256, 64]⟩ : Shape).Idx → EReal) (o : Fin 256) : EReal :=
  ∑ k : Fin 64, c (ix2 o k) * c (ix2 o k)

/-- The inner product of point `(b, s)` with star `o`. -/
def inner {B S : ℕ} (x : (⟨3, ![B, S, 64]⟩ : Shape).Idx → EReal) (c : (⟨2, ![256, 64]⟩ : Shape).Idx → EReal)
    (b : Fin B) (s : Fin S) (o : Fin 256) : EReal :=
  ∑ k : Fin 64, x (ix3 b s k) * c (ix2 o k)

/-- The distance of point `(b, s)` to star `o`, in the expanded form, clamped at zero before the root.  The two
    literals are the words both programs print (`2.0` and `0.0`); they are never evaluated. -/
def dist {B S : ℕ} (x : (⟨3, ![B, S, 64]⟩ : Shape).Idx → EReal) (c : (⟨2, ![256, 64]⟩ : Shape).Idx → EReal)
    (b : Fin B) (s : Fin S) (o : Fin 256) : EReal :=
  Ideal.sqrt (max ((sqNorm x b s + starSq c o) - Ideal.ofBits .f32 0x40000000#32 * inner x c b s o)
    (Ideal.ofBits .f32 0x00000000#32))

/-- The least of a family over `Fin n`, started from the word of `+∞` both programs print. -/
def least {n : ℕ} (f : Fin n → EReal) : EReal :=
  (Finset.univ : Finset (Fin n)).fold min (Ideal.ofBits .f32 0x7F800000#32) f

/-- THE RESULT: at `(b, o)` the least distance from star `o` to a point of batch `b`. -/
def nearest (x : (⟨3, ![16, 4096, 64]⟩ : Shape).Idx → EReal) (c : (⟨2, ![256, 64]⟩ : Shape).Idx → EReal) :
    (⟨2, ![16, 256]⟩ : Shape).Idx → EReal :=
  fun j => least fun s : Fin 4096 => dist x c (j 0) s (j 1)

theorem nearest_apply (x : (⟨3, ![16, 4096, 64]⟩ : Shape).Idx → EReal) (c : (⟨2, ![256, 64]⟩ : Shape).Idx → EReal)
    (b : Fin 16) (o : Fin 256) : nearest x c (ix2 b o) = least fun s : Fin 4096 => dist x c b s o := rfl

/-- The printed word `0x7F800000` is `+∞`, the top of the extended reals. -/
theorem ofBits_inf : Ideal.ofBits .f32 0x7F800000#32 = (⊤ : EReal) := by
  simp [Ideal.ofBits, Ideal.ieee]

/-- The universal property of `least`. -/
theorem le_least {n : ℕ} (f : Fin n → EReal) (z : EReal) : z ≤ least f ↔ ∀ s : Fin n, z ≤ f s := by
  unfold least
  rw [Finset.le_fold_min, ofBits_inf]
  exact ⟨fun h s => h.2 s (Finset.mem_univ s), fun h => ⟨le_top, fun s _ => h s⟩⟩

/-- `v` is the least of `f` over the indices below `n`. -/
def LeastBelow {N : ℕ} (f : Fin N → EReal) (n : ℕ) (v : EReal) : Prop :=
  ∀ z : EReal, z ≤ v ↔ ∀ s : Fin N, s.val < n → z ≤ f s

/-- `v` is the least of `f` over the indices in `[lo, hi)`. -/
def LeastOn {N : ℕ} (f : Fin N → EReal) (lo hi : ℕ) (v : EReal) : Prop :=
  ∀ z : EReal, z ≤ v ↔ ∀ s : Fin N, lo ≤ s.val → s.val < hi → z ≤ f s

theorem LeastBelow.unique {N : ℕ} {f : Fin N → EReal} {n : ℕ} {v w : EReal} (hv : LeastBelow f n v) (hw : LeastBelow f n w) :
    v = w :=
  eq_of_forall_le_iff fun z => (hv z).trans (hw z).symm

/-- The whole family's least element is its least below `N`. -/
theorem leastBelow_least {N : ℕ} (f : Fin N → EReal) : LeastBelow f N (least f) := fun z =>
  (le_least f z).trans ⟨fun h s _ => h s, fun h s => h s s.isLt⟩

/-- A stretch starting at `0` is an initial stretch. -/
theorem LeastOn.first {N : ℕ} {f : Fin N → EReal} {hi : ℕ} {v : EReal} (h : LeastOn f 0 hi v) : LeastBelow f hi v := fun z =>
  (h z).trans ⟨fun h s hs => h s (Nat.zero_le _) hs, fun h s _ hs => h s hs⟩

/-- An initial stretch extended by the adjacent stretch: the least is the smaller of the two. -/
theorem LeastBelow.step {N : ℕ} {f : Fin N → EReal} {n n' : ℕ} {v p : EReal} (hv : LeastBelow f n v) (hp : LeastOn f n n' p)
    (hn : n ≤ n') : LeastBelow f n' (min v p) := fun z => by
  rw [le_min_iff, hv z, hp z]
  constructor
  · rintro ⟨h1, h2⟩ s hs
    by_cases h : s.val < n
    · exact h1 s h
    · exact h2 s (Nat.le_of_not_lt h) hs
  · intro h
    exact ⟨fun s hs => h s (lt_of_lt_of_le hs hn), fun s _ hs => h s hs⟩

/-- The least over one tile of `T` consecutive indices, read through the tile's own numbering, is the least on that
    stretch. -/
theorem leastOn_tile {N T : ℕ} (f : Fin N → EReal) (lo : ℕ) (hlo : lo + T ≤ N) (g : Fin T → EReal)
    (hg : ∀ s' : Fin T, g s' = f ⟨lo + s'.val, lt_of_lt_of_le (Nat.add_lt_add_left s'.isLt lo) hlo⟩) :
    LeastOn f lo (lo + T) (least g) := fun z => by
  rw [le_least]
  constructor
  · intro h s h1 h2
    have := h ⟨s.val - lo, by omega⟩
    rw [hg] at this
    have e : (⟨lo + (s.val - lo), lt_of_lt_of_le (Nat.add_lt_add_left (show s.val - lo < T by omega) lo) hlo⟩ : Fin N) = s :=
      Fin.ext (by simp only; omega)
    rwa [e] at this
  · intro h s'
    rw [hg]
    exact h _ (Nat.le_add_right _ _) (Nat.add_lt_add_left s'.isLt lo)

end Cert.NearestStar

end
-- ==== Proof.TileValue.lean ====
/-
  One tile's value, index by index.

  A grid point holds a block of `8 × 256` points `x[b, s, ·] ∈ ℝ⁶⁴` and all `256` stars `c[o, ·] ∈ ℝ⁶⁴`.  The body
  forms the squared lengths `‖x_bs‖²` and `‖c_o‖²` by summing squares over the last axis, the inner products
  `⟨x_bs, c_o⟩` as one matrix product of the points laid out as `2048` rows (point `(b, s)` in row `b·256 + s`) with
  the transposed stars, then `√ max(‖x‖² + ‖c‖² − 2·⟨x, c⟩, 0)` at every `(b, s, o)`, and last the least of these over
  `s`, started from `+∞`.  Read at the extended reals, where a change of float format is the identity, each stage at
  an index is the corresponding term of the specification: the first payload at `(b, o)` is the least distance from
  star `o` to the tile's points of batch `b`, and the second payload is the smaller of that and the value already held.
-/
import proofs.«168192_j36773509989120_1_alg».proof.Proof.Gen.KernelIdeal.Skeleton
import proofs.«168192_j36773509989120_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.TileValue

open Idealize.ShloMosaic Idealize.ShloMosaic.ValueIdx Cert.KernelIdeal Cert.KernelIdeal.Gen

/-- A float minimum-reduction over one axis, read at the extended reals: the fold of `min` from the accumulator's value
    over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## The two add-reductions, read where the distance needs them -/

/-- The squared lengths of the points, kept as a trailing unit axis and broadcast along the stars' axis: at
    `(b, s, o)` it is the squared length of point `(b, s)`. -/
theorem pointSq_apply (x0 : Vec Ideal S8x256x64 .f32) (b : Fin 8) (s : Fin 256) (o : Fin 256) :
    broadcastTo S8x256x256
        (shapeCast S8x256x1
          (multiReduction (F := Ideal) .add [2] S8x256 (mulf x0 x0) 0x00000000#32 reduces_S8x256x64_S8x256 (.inl rfl) rfl)
          shapeCasts_S8x256_S8x256x1)
        broadcasts_S8x256x1_S8x256x256 (ix3 b s o)
      = Cert.NearestStar.sqNorm (B := 8) (S := 256) x0 b s := by
  refine (broadcastTo_apply _ _ (ix3 b s o) (ix3 b s (0 : Fin 1)) (fun a => ?_)).trans ?_
  · match a with
    | ⟨0, _⟩ => rfl
    | ⟨1, _⟩ => rfl
    | ⟨2, _⟩ => rfl
  refine (shapeCast_apply _ _ (ix3 b s (0 : Fin 1)) (ix2 b s) ?_).trans ?_
  · rw [Shape.rowMajor_val_two, Shape.rowMajor_val_three]
    show b.val * 256 + s.val = (b.val * 256 + s.val) * 1 + 0
    omega
  refine (Ideal.multiReduction_add_single _ _ _ _ _ (ix2 b s)).trans ?_
  unfold Cert.NearestStar.sqNorm
  refine Finset.sum_congr rfl fun k _ => ?_
  have e : reduces_S8x256x64_S8x256.lift (ix2 b s) k = ix3 b s k := funext fun a => Fin.ext (by
    match a with
    | ⟨0, _⟩ => rfl
    | ⟨1, _⟩ => rfl
    | ⟨2, _⟩ => rfl)
  rw [e]
  rfl

/-- The squared lengths of the stars, given two leading unit axes and broadcast over batches and points: at
    `(b, s, o)` it is the squared length of star `o`. -/
theorem starSq_apply (x1 : Vec Ideal S256x64 .f32) (b : Fin 8) (s : Fin 256) (o : Fin 256) :
    broadcastTo S8x256x256
        (shapeCast S1x1x256
          (multiReduction (F := Ideal) .add [1] S256 (mulf x1 x1) 0x00000000#32 reduces_S256x64_S256 (.inl rfl) rfl)
          shapeCasts_S256_S1x1x256)
        broadcasts_S1x1x256_S8x256x256 (ix3 b s o)
      = Cert.NearestStar.starSq x1 o := by
  refine (broadcastTo_apply _ _ (ix3 b s o) (ix3 (0 : Fin 1) (0 : Fin 1) o) (fun a => ?_)).trans ?_
  · match a with
    | ⟨0, _⟩ => rfl
    | ⟨1, _⟩ => rfl
    | ⟨2, _⟩ => rfl
  refine (shapeCast_apply _ _ (ix3 (0 : Fin 1) (0 : Fin 1) o) (ix1 o) ?_).trans ?_
  · rw [Shape.rowMajor_val_one, Shape.rowMajor_val_three]
    show o.val = (0 * 1 + 0) * 256 + o.val
    omega
  refine (Ideal.multiReduction_add_single _ _ _ _ _ (ix1 o)).trans ?_
  unfold Cert.NearestStar.starSq
  refine Finset.sum_congr rfl fun k _ => ?_
  have e : reduces_S256x64_S256.lift (ix1 o) k = ix2 o k := funext fun a => Fin.ext (by
    match a with
    | ⟨0, _⟩ => rfl
    | ⟨1, _⟩ => rfl)
  rw [e]
  rfl

/-! ## The product of the flattened points with the transposed stars -/

/-- The left operand's row coordinate is the result's row. -/
theorem lhs_axis_0 (i : S2048x256.Idx) (q : dot_S2048x64_S64x256_S2048x256_1_0_0_1_n_n.contr.Idx) :
    (dot_S2048x64_S64x256_S2048x256_1_0_0_1_n_n.lhsIdx i q 0).val = (i 0).val := by
  unfold DotDims.lhsIdx
  rw [dif_neg (show ¬(0 : Fin S2048x64.rank) ∈ dot_S2048x64_S64x256_S2048x256_1_0_0_1_n_n.lhsBatch by decide), dif_pos (show (0 : Fin S2048x64.rank) ∈ dot_S2048x64_S64x256_S2048x256_1_0_0_1_n_n.lhsNonContracting by decide)]
  rfl
/-- The left operand's column coordinate is the contraction position. -/
theorem lhs_axis_1 (i : S2048x256.Idx) (q : dot_S2048x64_S64x256_S2048x256_1_0_0_1_n_n.contr.Idx) :
    (dot_S2048x64_S64x256_S2048x256_1_0_0_1_n_n.lhsIdx i q 1).val = (q ⟨0, by decide⟩).val :=
  dot_S2048x64_S64x256_S2048x256_1_0_0_1_n_n.lhsIdx_val_of_single rfl i q
/-- The right operand's row coordinate is the contraction position. -/
theorem rhs_axis_0 (i : S2048x256.Idx) (q : dot_S2048x64_S64x256_S2048x256_1_0_0_1_n_n.contr.Idx) :
    (dot_S2048x64_S64x256_S2048x256_1_0_0_1_n_n.rhsIdx i q 0).val = (q ⟨0, by decide⟩).val :=
  dot_S2048x64_S64x256_S2048x256_1_0_0_1_n_n.rhsIdx_val_of_single rfl i q
/-- The right operand's column coordinate is the result's column. -/
theorem rhs_axis_1 (i : S2048x256.Idx) (q : dot_S2048x64_S64x256_S2048x256_1_0_0_1_n_n.contr.Idx) :
    (dot_S2048x64_S64x256_S2048x256_1_0_0_1_n_n.rhsIdx i q 1).val = (i 1).val := by
  unfold DotDims.rhsIdx
  rw [dif_neg (show ¬(1 : Fin S64x256.rank) ∈ dot_S2048x64_S64x256_S2048x256_1_0_0_1_n_n.rhsBatch by decide), dif_pos (show (1 : Fin S64x256.rank) ∈ dot_S2048x64_S64x256_S2048x256_1_0_0_1_n_n.rhsNonContracting by decide)]
  rfl

/-- The row of the flattened `[2048, 64]` array that holds point `(b, s)`. -/
abbrev row (b : Fin 8) (s : Fin 256) : Fin 2048 := ⟨b.val * 256 + s.val, by omega⟩

/-- The matrix product at row `b·256 + s` and column `o` is the inner product of point `(b, s)` with star `o`. -/
theorem product_apply (x0 : Vec Ideal S8x256x64 .f32) (x1 : Vec Ideal S256x64 .f32) (b : Fin 8) (s : Fin 256) (o : Fin 256) :
    matmul (F := Ideal) dot_S2048x64_S64x256_S2048x256_1_0_0_1_n_n none
        (shapeCast S2048x64 (truncf .bf16 x0 bitsLt_bf16_f32) shapeCasts_S8x256x64_S2048x64)
        (transpose S64x256 [1, 0] (truncf .bf16 x1 bitsLt_bf16_f32) transposes_S256x64_p1_0_S64x256)
        (constant S2048x256 .f32 0x00000000#32) (ix2 (row b s) o)
      = Cert.NearestStar.inner (B := 8) (S := 256) x0 x1 b s o := by
  simp only [matmul]
  rw [Ideal.matmul_constant_zero_apply, ← Equiv.sum_comp (contrEquiv1 dot_S2048x64_S64x256_S2048x256_1_0_0_1_n_n 64 rfl rfl).symm]
  unfold Cert.NearestStar.inner
  refine Finset.sum_congr rfl fun k _ => ?_
  have hk := contrEquiv1_symm_val dot_S2048x64_S64x256_S2048x256_1_0_0_1_n_n 64 rfl rfl k
  have el : dot_S2048x64_S64x256_S2048x256_1_0_0_1_n_n.lhsIdx (ix2 (row b s) o) ((contrEquiv1 dot_S2048x64_S64x256_S2048x256_1_0_0_1_n_n 64 rfl rfl).symm k) = ix2 (row b s) k := funext fun a => Fin.ext (by
    match a with
    | ⟨0, _⟩ => exact lhs_axis_0 _ _
    | ⟨1, _⟩ => exact (lhs_axis_1 _ _).trans hk)
  have er : dot_S2048x64_S64x256_S2048x256_1_0_0_1_n_n.rhsIdx (ix2 (row b s) o) ((contrEquiv1 dot_S2048x64_S64x256_S2048x256_1_0_0_1_n_n 64 rfl rfl).symm k) = ix2 k o := funext fun a => Fin.ext (by
    match a with
    | ⟨0, _⟩ => exact (rhs_axis_0 _ _).trans hk
    | ⟨1, _⟩ => exact rhs_axis_1 _ _)
  rw [el, er]
  refine congrArg₂ (· * ·) ?_ ?_
  · refine (shapeCast_apply _ _ (ix2 (row b s) k) (ix3 b s k) ?_).trans rfl
    rw [Shape.rowMajor_val_three, Shape.rowMajor_val_two]
    rfl
  · exact (transpose_ix2_apply _ _ k o).trans rfl

/-- The product reshaped back to `[8, 256, 256]`, read at `(b, s, o)`. -/
theorem inner_apply (x0 : Vec Ideal S8x256x64 .f32) (x1 : Vec Ideal S256x64 .f32) (b : Fin 8) (s : Fin 256) (o : Fin 256) :
    shapeCast S8x256x256
        (matmul (F := Ideal) dot_S2048x64_S64x256_S2048x256_1_0_0_1_n_n none
          (shapeCast S2048x64 (truncf .bf16 x0 bitsLt_bf16_f32) shapeCasts_S8x256x64_S2048x64)
          (transpose S64x256 [1, 0] (truncf .bf16 x1 bitsLt_bf16_f32) transposes_S256x64_p1_0_S64x256)
          (constant S2048x256 .f32 0x00000000#32))
        shapeCasts_S2048x256_S8x256x256 (ix3 b s o)
      = Cert.NearestStar.inner (B := 8) (S := 256) x0 x1 b s o := by
  refine (shapeCast_apply _ _ (ix3 b s o) (ix2 (row b s) o) ?_).trans (product_apply x0 x1 b s o)
  rw [Shape.rowMajor_val_two, Shape.rowMajor_val_three]
  rfl

/-! ## The two payloads -/

/-- The second payload at `(b, o)`: the smaller of the value held and the tile's least distance. -/
theorem pay2_apply
    (x0 : Vec Ideal Cert.KernelIdeal.S8x256x64 .f32) (x1 : Vec Ideal Cert.KernelIdeal.S256x64 .f32)
    (xo : Vec Ideal Cert.KernelIdeal.S8x256 .f32) (b : Fin 8) (o : Fin 256) :
    Cert.KernelIdeal.Gen.k0_pay2 (F := Ideal) x0 x1 xo (ValueIdx.ix2 b o)
      = min (xo (ValueIdx.ix2 b o)) (Cert.KernelIdeal.Gen.k0_pay1 (F := Ideal) x0 x1 (ValueIdx.ix2 b o)) := by
  unfold k0_pay2
  rw [minimumf_apply, shapeCast_self]

/-- The first payload at `(b, o)`: the least, over the tile's `256` points of batch `b`, of the distance to star `o`. -/
theorem pay1_apply
    (x0 : Vec Ideal Cert.KernelIdeal.S8x256x64 .f32) (x1 : Vec Ideal Cert.KernelIdeal.S256x64 .f32) (b : Fin 8) (o : Fin 256) :
    Cert.KernelIdeal.Gen.k0_pay1 (F := Ideal) x0 x1 (ValueIdx.ix2 b o)
      = Cert.NearestStar.least fun s : Fin 256 => Cert.NearestStar.dist (B := 8) (S := 256) x0 x1 b s o := by
  unfold k0_pay1
  refine (multiReduction_minimumf_single _ _ _ _ _ _).trans ?_
  unfold Cert.NearestStar.least
  refine congrArg (Finset.fold min (Ideal.ofBits .f32 0x7F800000#32) · Finset.univ) (funext fun s => ?_)
  have e : reduces_S8x256x256_S8x256.lift (ix2 b o) s = ix3 b s o := funext fun a => Fin.ext (by
    match a with
    | ⟨0, _⟩ => rfl
    | ⟨1, _⟩ => rfl
    | ⟨2, _⟩ => rfl)
  show _ = Cert.NearestStar.dist (B := 8) (S := 256) x0 x1 b s o
  rw [Function.comp_apply, e]
  unfold Cert.NearestStar.dist
  exact congrArg Ideal.sqrt (congrArg₂ max (congrArg₂ (· - ·) (congrArg₂ (· + ·) (pointSq_apply x0 b s o) (starSq_apply x1 b s o))
    (congrArg (Ideal.ofBits .f32 0x40000000#32 * ·) (inner_apply x0 x1 b s o))) rfl)

end Cert.KernelIdeal.TileValue

end
-- ==== Proof.IdealValue.lean ====
/-
  The idealized kernel's result, read off its frame run.

  A point's block of points is rows `8·bi …`, points `256·si …` of the points array, and its block of stars the
  whole stars array; so the tile's partial minimum is the least distance over that stretch of the points.  By
  induction on the point the output buffer holds the least distance over the points seen so far in the batch tile,
  and at the last point tile, when the buffer is written back, over all of them.  The written-back blocks tile the
  result array.
-/
import proofs.«168192_j36773509989120_1_alg».proof.Proof.IdealFrame
import proofs.«168192_j36773509989120_1_alg».proof.Proof.Spec
import proofs.«168192_j36773509989120_1_alg».proof.Proof.TileValue
import Idealize.ShloMosaic.Lib.Pipeline.Value
import Idealize.ShloMosaic.Lib.ValueIdx

set_option maxRecDepth 16384

noncomputable section

namespace Cert.KernelIdeal.Tiles

open Cert.KernelIdeal Cert.KernelIdeal.Gen Cert.NearestStar
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The arrays and the blocks, by their literal types -/

/-- The points and the stars as the region finds them. -/
abbrev pts (c : Dev nD) : Vec Ideal S16x4096x64 .f32 := V m c main_arg0
abbrev strs (c : Dev nD) : Vec Ideal S256x64 .f32 := V m c main_arg1

/-- Point `t`'s block of points and its (whole) block of stars. -/
abbrev xblk (c : Dev nD) (t : Fin cfg0.N) : Vec Ideal S8x256x64 .f32 := iblk m c 0 t
abbrev sblk (c : Dev nD) (t : Fin cfg0.N) : Vec Ideal S256x64 .f32 := iblk m c 1 t

/-- The printed index maps, decided over the grid: point `t` is batch tile `t / 16`, point tile `t % 16`. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 2) = 0 ∧ win0_1.index t (1 : Fin 2) = 0
    ∧ win0_2.index t (0 : Fin 2) = t.val / 16 ∧ win0_2.index t (1 : Fin 2) = 0 :=
  (by decide +kernel : ∀ t : Fin grid0.N, _)

/-- The block of points at point `16·bi + si` is rows `8·bi …` and points `256·si …` of the array. -/
theorem xblk_apply (c : Dev nD) (t : Fin cfg0.N) (bi si : ℕ) (hbi : bi < 2) (hsi : si < 16) (ht : t.val = 16 * bi + si)
    (b : Fin 8) (s : Fin 256) (k : Fin 64) :
    xblk m c t (ix3 b s k) = pts m c (ix3 (⟨8 * bi + b.val, by omega⟩ : Fin 16) (⟨256 * si + s.val, by omega⟩ : Fin 4096) k) := by
  obtain ⟨e0, e1, e2, -⟩ := idx_facts t
  show V m c main_arg0 (((cfg0.win 0).blk t).view.emb (ix3 b s k)) = _
  refine congrArg (V m c main_arg0) (funext fun a => Fin.ext ?_)
  match a with
  | ⟨0, _⟩ => show win0_0.index t (0 : Fin 3) * 8 + 1 * b.val = 8 * bi + b.val; omega
  | ⟨1, _⟩ => show win0_0.index t (1 : Fin 3) * 256 + 1 * s.val = 256 * si + s.val; omega
  | ⟨2, _⟩ => show win0_0.index t (2 : Fin 3) * 64 + 1 * k.val = k.val; omega

/-- The block of stars is the whole array at every point. -/
theorem sblk_apply (c : Dev nD) (t : Fin cfg0.N) (o : Fin 256) (k : Fin 64) :
    sblk m c t (ix2 o k) = strs m c (ix2 o k) := by
  obtain ⟨-, -, -, e3, e4, -⟩ := idx_facts t
  show V m c main_arg1 (((cfg0.win 1).blk t).view.emb (ix2 o k)) = _
  refine congrArg (V m c main_arg1) (funext fun a => Fin.ext ?_)
  match a with
  | ⟨0, _⟩ => show win0_1.index t (0 : Fin 2) * 256 + 1 * o.val = o.val; omega
  | ⟨1, _⟩ => show win0_1.index t (1 : Fin 2) * 64 + 1 * k.val = k.val; omega

/-- So a distance computed inside the block is the array's distance at the block's place. -/
theorem dist_blk (c : Dev nD) (t : Fin cfg0.N) (bi si : ℕ) (hbi : bi < 2) (hsi : si < 16) (ht : t.val = 16 * bi + si)
    (b : Fin 8) (s : Fin 256) (o : Fin 256) :
    NearestStar.dist (B := 8) (S := 256) (xblk m c t) (sblk m c t) b s o
      = NearestStar.dist (B := 16) (S := 4096) (pts m c) (strs m c) (⟨8 * bi + b.val, by omega⟩ : Fin 16) (⟨256 * si + s.val, by omega⟩ : Fin 4096) o := by
  unfold NearestStar.dist NearestStar.sqNorm NearestStar.starSq NearestStar.inner
  simp only [xblk_apply m c t bi si hbi hsi ht, sblk_apply m c t]

/-! ## The running minimum is the least distance over the points seen so far -/

/-- The distances from star `o` to the points of batch `8·bi + b`. -/
abbrev dists (c : Dev nD) (bi : ℕ) (hbi : bi < 2) (b : Fin 8) (o : Fin 256) : Fin 4096 → EReal :=
  fun s => NearestStar.dist (B := 16) (S := 4096) (pts m c) (strs m c) (⟨8 * bi + b.val, by omega⟩ : Fin 16) s o

/-- One tile's partial minimum is the least distance on that tile's stretch of the points. -/
theorem tile_least (c : Dev nD) (t : Fin cfg0.N) (bi si : ℕ) (hbi : bi < 2) (hsi : si < 16) (ht : t.val = 16 * bi + si)
    (b : Fin 8) (o : Fin 256) :
    LeastOn (dists m c bi hbi b o) (256 * si) (256 * si + 256) (k0_pay1 (F := Ideal) (xblk m c t) (sblk m c t) (ix2 b o)) := by
  rw [TileValue.pay1_apply]
  exact leastOn_tile (dists m c bi hbi b o) (256 * si) (by omega) _ (fun s' => dist_blk m c t bi si hbi hsi ht b s' o)

/-- THE INVARIANT: after point `16·bi + si` the output buffer holds, at `(b, o)`, the least distance from star `o` to
    the first `256·(si + 1)` points of batch `8·bi + b`. -/
theorem acc_least (c : Dev nD) : ∀ (n : ℕ) (hn : n < cfg0.N) (bi si : ℕ) (hbi : bi < 2) (hsi : si < 16), n = 16 * bi + si →
    ∀ (b : Fin 8) (o : Fin 256), LeastBelow (dists m c bi hbi b o) (256 * (si + 1)) (accAt m c n hn (ix2 b o))
  | 0, hn, bi, si, hbi, hsi, e, b, o => by
    obtain rfl : si = 0 := by omega
    have h := (tile_least m c ⟨0, hn⟩ bi 0 hbi hsi e b o).first
    rw [accAt_first m c ⟨0, hn⟩ rfl]
    exact h
  | n + 1, hn, bi, si, hbi, hsi, e, b, o => by
    by_cases h0 : (n + 1) % 16 = 0
    · obtain rfl : si = 0 := by omega
      have h := (tile_least m c ⟨n + 1, hn⟩ bi 0 hbi hsi e b o).first
      rw [accAt_first m c ⟨n + 1, hn⟩ h0]
      exact h
    · obtain ⟨si', rfl⟩ : ∃ si', si = si' + 1 := ⟨si - 1, by omega⟩
      have ih := acc_least c n (Nat.lt_of_succ_lt hn) bi si' hbi (by omega) (by omega) b o
      have ht := tile_least m c ⟨n + 1, hn⟩ bi (si' + 1) hbi hsi e b o
      rw [accAt_later m c ⟨n + 1, hn⟩ h0, TileValue.pay2_apply]
      have hs := ih.step ht (Nat.le_add_right _ _)
      have e2 : 256 * (si' + 1) + 256 = 256 * (si' + 1 + 1) := by omega
      rw [e2] at hs
      exact hs

/-! ## From the blocks to the array -/

/-- An index of the result array is in point `t`'s block iff each coordinate is in the block's range on its axis. -/
theorem mem_blk2 (t : Fin cfg0.N) (i : S16x256.Idx) :
    i ∈ ((cfg0.win 2).blk t).view.set ↔ ∀ a : Fin 2, win0_2.index t a * S8x256.size a ≤ (i a).val ∧ (i a).val < win0_2.index t a * S8x256.size a + S8x256.size a := by
  show i ∈ ((View.whole main_v0).slice (win0_2.rect t)).set ↔ _
  rw [View.set_slice_whole, Rect.mem_set_unit]
  exact Iff.rfl

/-- WHAT A WRITE-BACK WRITES: at the last point tile of batch tile `bi` the output buffer holds that batch tile's rows
    of the result. -/
theorem flushed_eq (c : Dev nD) (t : Fin cfg0.N) (hf : (cfg0.win 2).flush t = true) :
    (dats m 0 c).flushed 2 t = ((cfg0.win 2).blk t).view.read (Elt Ideal) (nearest (pts m c) (strs m c)) := by
  have h15 : t.val % 16 = 15 := (flush0_2 t).mp hf
  have hN : t.val < 32 := lt_of_lt_of_eq t.isLt (show cfg0.N = 32 from N_0)
  obtain ⟨-, -, -, -, -, e5, e6⟩ := idx_facts t
  show (cfg0.win 2).cut (grid0.coords t) ((dats m 0 c).after 2 t) = _
  rw [after2]
  funext j
  obtain ⟨b, o, rfl⟩ : ∃ (b : Fin 8) (o : Fin 256), j = ix2 b o := ⟨j 0, j 1, eq_ix2 j⟩
  have hbi : t.val / 16 < 2 := by omega
  have hinv := acc_least m c t.val t.isLt (t.val / 16) 15 hbi (by omega) (by omega) b o
  have hemb : ((cfg0.win 2).blk t).view.emb (ix2 b o) = ix2 (⟨8 * (t.val / 16) + b.val, by omega⟩ : Fin 16) o := by
    funext a; apply Fin.ext
    match a with
    | ⟨0, _⟩ => show win0_2.index t (0 : Fin 2) * 8 + 1 * b.val = 8 * (t.val / 16) + b.val; omega
    | ⟨1, _⟩ => show win0_2.index t (1 : Fin 2) * 256 + 1 * o.val = o.val; omega
  show accAt m c t.val t.isLt (ix2 b o) = nearest (pts m c) (strs m c) (((cfg0.win 2).blk t).view.emb (ix2 b o))
  rw [hemb, nearest_apply]
  exact hinv.unique (leastBelow_least _)

/-- Every index of the result lies in the block some write-back writes: the last point tile of its batch tile. -/
theorem cover2 (i : S16x256.Idx) : ∃ t : Fin cfg0.N, (cfg0.win 2).flush t = true ∧ i ∈ ((cfg0.win 2).blk t).view.set := by
  have hi0 : (i 0).val < 16 := (i 0).isLt
  have hi1 : (i 1).val < 256 := (i 1).isLt
  have hN : cfg0.N = 32 := N_0
  refine ⟨⟨16 * ((i 0).val / 8) + 15, by omega⟩, (flush0_2 _).mpr (by show (16 * ((i 0).val / 8) + 15) % 16 = 15; omega), ?_⟩
  obtain ⟨-, -, -, -, -, e5, e6⟩ := idx_facts ⟨16 * ((i 0).val / 8) + 15, by omega⟩
  rw [mem_blk2]
  intro a
  match a with
  | ⟨0, _⟩ =>
    show win0_2.index _ (0 : Fin 2) * 8 ≤ (i 0).val ∧ (i 0).val < win0_2.index _ (0 : Fin 2) * 8 + 8
    have : (16 * ((i 0).val / 8) + 15) / 16 = (i 0).val / 8 := by omega
    simp only at e5
    omega
  | ⟨1, _⟩ =>
    show win0_2.index _ (1 : Fin 2) * 256 ≤ (i 1).val ∧ (i 1).val < win0_2.index _ (1 : Fin 2) * 256 + 256
    omega

/-- THE ARRAY after the run: the least distances. -/
theorem final2 (c : Dev nD) : (dats m 0 c).arrAt 2 cfg0.N = nearest (pts m c) (strs m c) :=
  (dats m 0 c).arrAt_eq_of_cover 2 (nearest (pts m c) (strs m c)) (fun t hf => flushed_eq m c t hf) cover2

/-! ## The run, read -/

/-- Every weakly fair execution of the idealized kernel terminates with the result array at the least distances of the
    argument arrays and the arguments unchanged. -/
theorem run : θ_run defs (onTc (τ := τ) (main (F := Ideal))) ⟨m, fun _ => 0, ρ⟩ fun r => ∀ c : Dev nD,
      r.2.mem ((c : Thread nD τ).loc main_v0) = nearest (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Tiles

end
-- ==== Proof.RefSide.lean ====
/-
  The reference side: its run read back, one operation at a time.

  The reference computes, for every batch b, star o and point s, the distance in the expanded form
  sqrt (max ((|x_bs|^2 + |c_o|^2) - 2 * <c_o, x_bs>, 0)) as one array indexed by (b, o, s), and then takes the
  minimum along s starting from the word of +infinity.  Read at an index, each stage is the corresponding piece of
  the specification: the two squared lengths are sums of squares started from the zero word (which is 0 and drops
  out), the contraction is the inner product with its factors in the other order (the product commutes), and the
  final reduction along the last axis is the fold of min over the 4096 points, which is the specification's least.
-/
import proofs.«168192_j36773509989120_1_alg».proof.Defs
import proofs.«168192_j36773509989120_1_alg».proof.Proof.Gen.ReferenceIdeal.Run
import proofs.«168192_j36773509989120_1_alg».proof.Proof.Gen.ReferenceIdeal.Read
import proofs.«168192_j36773509989120_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-- The row sums of the squared points are the squared lengths: the sum starts from the zero word, which is 0. -/
theorem sqNorm_at (x0 : (⟨S16x4096x64, .f32⟩ : BufTy).Contents (Elt Ideal)) (b : Fin 16) (s : Fin 4096) :
    val_main_v1 (F := Ideal) x0 (ix2 b s) = NearestStar.sqNorm (B := 16) (S := 4096) x0 b s := by
  rw [val_main_v1_apply, val_main_cst_apply, Ideal.ofBits_def, Ideal.ofBits_zero_f32, zero_add]
  unfold NearestStar.sqNorm
  refine Finset.sum_congr rfl fun k _ => ?_
  have e : idx_main_v1 (ix2 b s) k = ix3 b s k :=
    funext fun a => Fin.ext (by match a with | ⟨0, _⟩ => rfl | ⟨1, _⟩ => rfl | ⟨2, _⟩ => rfl)
  rw [val_main_v0_apply, e, Ideal.mulf_def]

/-- The row sums of the squared stars are the stars' squared lengths. -/
theorem starSq_at (x1 : (⟨S256x64, .f32⟩ : BufTy).Contents (Elt Ideal)) (o : Fin 256) :
    val_main_v3 (F := Ideal) x1 (ix1 o) = NearestStar.starSq x1 o := by
  rw [val_main_v3_apply, val_main_cst_0_apply, Ideal.ofBits_def, Ideal.ofBits_zero_f32, zero_add]
  unfold NearestStar.starSq
  refine Finset.sum_congr rfl fun k _ => ?_
  have e : idx_main_v3 (ix1 o) k = ix2 o k :=
    funext fun a => Fin.ext (by match a with | ⟨0, _⟩ => rfl | ⟨1, _⟩ => rfl)
  rw [val_main_v2_apply, e, Ideal.mulf_def]

/-- The contraction of stars (left) with points (right) is the inner product of the point with the star: the
    product of two extended reals commutes. -/
theorem inner_at (x0 : (⟨S16x4096x64, .f32⟩ : BufTy).Contents (Elt Ideal)) (x1 : (⟨S256x64, .f32⟩ : BufTy).Contents (Elt Ideal))
    (b : Fin 16) (o : Fin 256) (s : Fin 4096) :
    val_main_v4 (F := Ideal) x0 x1 (ix3 o b s) = NearestStar.inner (B := 16) (S := 4096) x0 x1 b s o := by
  rw [val_main_v4_apply]
  unfold NearestStar.inner
  refine Finset.sum_congr rfl fun k _ => ?_
  have el : lidx_main_v4 (ix3 o b s) k = ix2 o k :=
    funext fun a => Fin.ext (by match a with | ⟨0, _⟩ => rfl | ⟨1, _⟩ => rfl)
  have er : ridx_main_v4 (ix3 o b s) k = ix3 b s k :=
    funext fun a => Fin.ext (by match a with | ⟨0, _⟩ => rfl | ⟨1, _⟩ => rfl | ⟨2, _⟩ => rfl)
  rw [el, er, mul_comm]

/-- The reference's distance array at (b, o, s) is the specification's distance of point (b, s) to star o. -/
theorem dist_at (x0 : (⟨S16x4096x64, .f32⟩ : BufTy).Contents (Elt Ideal)) (x1 : (⟨S256x64, .f32⟩ : BufTy).Contents (Elt Ideal))
    (b : Fin 16) (o : Fin 256) (s : Fin 4096) :
    val_main_v16 (F := Ideal) x0 x1 (ix3 b o s) = NearestStar.dist (B := 16) (S := 4096) x0 x1 b s o := by
  have e8 : idx_main_v6 (idx_main_v8 (ix3 b o s)) = ix2 b s :=
    funext fun a => Fin.ext (by match a with | ⟨0, _⟩ => rfl | ⟨1, _⟩ => rfl)
  have e9 : idx_main_v7 (idx_main_v9 (ix3 b o s)) = ix1 o :=
    funext fun a => Fin.ext (by match a with | ⟨0, _⟩ => rfl)
  have e5 : idx_main_v5 (ix3 b o s) = ix3 o b s :=
    funext fun a => Fin.ext (by match a with | ⟨0, _⟩ => rfl | ⟨1, _⟩ => rfl | ⟨2, _⟩ => rfl)
  rw [val_main_v16_apply, val_main_v15_apply, val_main_v13_apply, val_main_v10_apply, val_main_v8_apply,
    val_main_v6_apply, e8, sqNorm_at, val_main_v9_apply, val_main_v7_apply, e9, starSq_at, val_main_v12_apply,
    val_main_v11_apply, val_main_cst_1_apply, val_main_v5_apply, e5, inner_at, val_main_v14_apply,
    val_main_cst_2_apply]
  rfl

/-- The host's minimum along the last axis of a [16, 256, 4096] array, read at (b, o): the fold of min over the 4096
    entries of that row, started from the initial value's one element.  The reduced index with coordinate s put back
    on the dropped axis is (b, o, s). -/
theorem reduceMin_at (y : FVec Ideal S16x256x4096 .f32) (c : FVec Ideal S_ .f32) (b : Fin 16) (o : Fin 256) :
    Host.reduce FloatOps.minimumf y c reducesTo_S16x256x4096_S16x256_d2 h_S_ (ix2 b o)
      = (Finset.univ : Finset (Fin 4096)).fold min (c (Shape.Idx.first h_S_)) (fun s => y (ix3 b o s)) := by
  have hR : S16x256x4096.Reduces [2] S16x256 := by decide
  rw [Host.reduce_eq_fold_single FloatOps.minimumf y c reducesTo_S16x256x4096_S16x256_d2 hR h_S_]
  have hf : (y ∘ hR.lift (ix2 b o)) = fun s : Fin 4096 => y (ix3 b o s) :=
    funext fun s => congrArg y
      (funext fun a => Fin.ext (by match a with | ⟨0, _⟩ => rfl | ⟨1, _⟩ => rfl | ⟨2, _⟩ => rfl))
  exact congrArg (fun f => Finset.fold min (c (Shape.Idx.first h_S_)) f (Finset.univ : Finset (Fin 4096))) hf

/-- THE REFERENCE'S RESULT is the specification: the minimum along the last axis, started from the word of the top
    element, is the least distance over the 4096 points. -/
theorem ref_is_nearest
    (x0 : (⟨Cert.ReferenceIdeal.S16x4096x64, .f32⟩ : BufTy).Contents (Elt Ideal))
    (x1 : (⟨Cert.ReferenceIdeal.S256x64, .f32⟩ : BufTy).Contents (Elt Ideal)) :
    Cert.ReferenceIdeal.Read.val_main_v17 (F := Ideal) x0 x1 = Cert.NearestStar.nearest x0 x1 := by
  funext j
  obtain ⟨b, o, rfl⟩ : ∃ (b : Fin 16) (o : Fin 256), j = ix2 b o := ⟨j 0, j 1, eq_ix2 j⟩
  rw [NearestStar.nearest_apply]
  unfold val_main_v17 NearestStar.least
  refine (reduceMin_at (val_main_v16 (F := Ideal) x0 x1) (val_main_cst_3 (F := Ideal)) b o).trans ?_
  refine Finset.fold_congr fun s _ => ?_
  exact dist_at x0 x1 b o s

end Cert.ReferenceIdeal.RefValue

end
-- ==== Proof.lean ====
/-
  The nearest-point distance, tile by tile, against the one-sweep reference.

  For points `x[b, s, ·]` and stars `c[o, ·]` in `ℝ⁶⁴` both programs compute, at `(b, o)`, the least over the `4096`
  points `s` of the distance `√ max(‖x_bs‖² + ‖c_o‖² − 2·⟨x_bs, c_o⟩, 0)`.  The kernel walks a grid of `2 × 16`
  points: at grid point `(bi, si)` it forms the distances of `8` batches and `256` points to all stars, takes their
  least over the tile's points, and folds it into the output block of batch tile `bi`, which stays resident over
  `si` and is written back after `si = 15`.  The reference forms all distances at once and takes the least along `s`.

  Read at the extended reals both are the same function of the arguments: the summands of the two squared lengths
  and of the inner product are the same products (in the inner product with the factors exchanged, and the product
  commutes), a change of float format is the identity, and the least of a finite family does not depend on the order
  or grouping in which it is taken — carried here by the universal property of the minimum, so no two folds are ever
  compared.  No law used needs the inputs to be finite, so the precondition is not opened.

  The three frames: the kernel's, at both readings, from its body run at every grid point against the pipeline's
  launch theorem (the output buffer's contents point by point are the running minimum); the reference's from its run.
  The idealization changed no operation, so there is nothing to preserve.
-/
import proofs.«168192_j36773509989120_1_alg».proof.Defs
import proofs.«168192_j36773509989120_1_alg».proof.Proof.Gen.Kernel
import proofs.«168192_j36773509989120_1_alg».proof.Proof.Gen.KernelIdeal
import proofs.«168192_j36773509989120_1_alg».proof.Proof.Gen.ReferenceIdeal
import proofs.«168192_j36773509989120_1_alg».proof.Proof.Gen.Pre_finite_inputs
import proofs.«168192_j36773509989120_1_alg».proof.Proof.BitsFrame
import proofs.«168192_j36773509989120_1_alg».proof.Proof.IdealValue
import proofs.«168192_j36773509989120_1_alg».proof.Proof.RefSide
import Idealize.ShloMosaic.Adequacy
import Idealize.ShloMosaic.Init

noncomputable section

namespace Cert.Proof

open Idealize.ShloMosaic Idealize.SL.Sem

/-- The kernel as printed runs to the end, faults nowhere and leaves its arguments unchanged. -/
theorem frame_kernel : Cert.frame_Kernel := fun m ρ _ => Cert.Kernel.Tiles.frame m ρ

/-- So does its reading at the extended reals. -/
theorem frame_kernelIdeal : Cert.frame_KernelIdeal := fun m ρ _ => Cert.KernelIdeal.Tiles.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the points and the stars both programs end with the result array at the least
    distances: the kernel's by its run read tile by tile, the reference's by its run read one operation at a time. -/
theorem algebraic : Cert.algebraic_KernelIdeal_ReferenceIdeal := by
  intro m ρ m' ρ' _ hagree
  refine ⟨_, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.ref_is_nearest, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
